-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S640000x128 : Shape := ⟨2, ![640000, 128]⟩
abbrev S640000 : Shape := ⟨1, ![640000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg9 : FVec F S256 .f32) (main_arg10 : FVec F S256x128 .f32) (main_arg11 : FVec F S128 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S256x128 .f32) (main_arg7 : FVec F S128 .f32) (main_arg8 : FVec F S256x256 .f32) (main_arg9 : FVec F S256 .f32) (main_arg10 : FVec F S256x128 .f32) (main_arg11 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_v33

def fn {F : FTy → Type} [FloatOps F] (main_arg0 : FVec F S20000x128 .f32) (main_arg1 : FVec F S640000x128 .f32) (main_arg2 : IVec S640000 32) (main_arg3 : IVec S640000 32) (main_arg4 : FVec F S384x256 .f32) (main_arg5 : FVec F S256 .f32) (main_arg6 : FVec F S256x128 .f32) (main_arg7 : FVec F S128 .f32) (main_arg8 : FVec F S256x256 .f32) (main_arg9 : FVec F S256 .f32) (main_arg10 : FVec F S256x128 .f32) (main_arg11 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S384x256 .f32 := Host.absf main_arg4
  let main_cst_2 : FVec F S_ .f32 := constant S_ .f32 0x7F800000#32
  let main_v10 : FVec F S384x256 .f32 := broadcastInDim S384x256 ![] bcast_S_S384x256 main_cst_2
  let main_v11 : IVec S384x256 1 := cmpf .olt main_v9 main_v10
  let main_c_3 : IVec S_ 1 := constantI S_ 1 1#1
  let main_v12 : IVec S_ 1 := (fun x v => Host.reduce IntOp.andi x v reducesTo_S384x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_v13 main_v16
-- ==== Kernel.lean ====
abbrev S20000x128 : Shape := ⟨2, ![20000, 128]⟩
abbrev S640000x128 : Shape := ⟨2, ![640000, 128]⟩
abbrev S640000 : Shape := ⟨1, ![640000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S_ : Shape := ⟨0, ![]⟩
abbrev S640000x1 : Shape := ⟨2, ![640000, 1]⟩
abbrev S128x256 : Shape := ⟨2, ![128, 256]⟩
abbrev S1x256 : Shape := ⟨2, ![1, 256]⟩
abbrev S1x128 : Shape := ⟨2, ![1, 128]⟩
abbrev S4000x128 : Shape := ⟨2, ![4000, 128]⟩
abbrev S4000x256 : Shape := ⟨2, ![4000, 256]⟩
abbrev S2000x128 : Shape := ⟨2, ![2000, 128]⟩
abbrev S2000x256 : Shape := ⟨2, ![2000, 256]⟩

abbrev nBuf : Space → Nat
  | .hbm => 57
  | .vmem => 25
  | .smem => 0
  | _ => 0

abbrev bufTy : (tb : Table) → Fin (tcTables nBuf tb) → BufTy
  | .hbm, ⟨0, _⟩ => ⟨S20000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S384x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S256x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x128, .f32⟩
  | .hbm, ⟨30, _⟩ => ⟨S640000x128, .bf16⟩
  | .hbm, ⟨31, _⟩ => ⟨S640000x128, .bf16⟩
  | .hbm, ⟨32, _⟩ => ⟨S640000x128, .bf16⟩
  | .hbm, ⟨33, _⟩ => ⟨S128x256, .f32⟩
  | .hbm, ⟨34, _⟩ => ⟨S128x256, .bf16⟩
  | .hbm, ⟨35, _⟩ => ⟨S128x256, .f32⟩
  | .hbm, ⟨36, _⟩ => ⟨S128x256, .bf16⟩
  | .hbm, ⟨37, _⟩ => ⟨S128x256, .f32⟩
  | .hbm, ⟨38, _⟩ => ⟨S128x256, .bf16⟩
  | .hbm, ⟨39, _⟩ => ⟨S256x128, .bf16⟩
  | .hbm, ⟨40, _⟩ => ⟨S1x256, .f32⟩
  | .hbm, ⟨41, _⟩ => ⟨S1x128, .f32⟩
  | .hbm, ⟨42, _⟩ => ⟨S640000x128, .f32⟩
  | .hbm, ⟨43, _⟩ => ⟨S_, .f32⟩
  | .hbm, ⟨44, _⟩ => ⟨S20000x128, .f32⟩
  | .hbm, ⟨45, _⟩ => ⟨S640000x1, .i32⟩
  | .hbm, ⟨46, _⟩ => ⟨S20000x128, .f32⟩
  | .hbm, ⟨47, _⟩ => ⟨S20000x128, .bf16⟩
  | .hbm, ⟨48, _⟩ => ⟨S20000x128, .bf16⟩
  | .hbm, ⟨49, _⟩ => ⟨S128x256, .f32⟩
  | .hbm, ⟨50, _⟩ => ⟨S128x256, .bf16⟩
  | .hbm, ⟨51, _⟩ => ⟨S128x256, .f32⟩
  | .hbm, ⟨52, _⟩ => ⟨S128x256, .bf16⟩
  | .hbm, ⟨53, _⟩ => ⟨S256x128, .bf16⟩
  | .hbm, ⟨54, _⟩ => ⟨S1x256, .f32⟩
  | .hbm, ⟨55, _⟩ => ⟨S1x128, .f32⟩
  | .hbm, ⟨56, _⟩ => ⟨S20000x128, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x128, .bf16⟩
  | .local _ .vmem, ⟨5, _⟩ => ⟨S4000x128, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S1x256, .f32⟩
  | .local _ .vmem, ⟨10, _⟩ => ⟨S256x128, .bf16⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | .local _ .vmem, ⟨14, _⟩ => ⟨S2000x128, .bf16⟩
  | .local _ .vmem, ⟨15, _⟩ => ⟨S2000x128, .bf16⟩
  | .local _ .vmem, ⟨16, _⟩ => ⟨S2000x128, .bf16⟩
  | .local _ .vmem, ⟨17, _⟩ => ⟨S2000x128, .bf16⟩
  | .local _ .vmem, ⟨18, _⟩ => ⟨S128x256, .bf16⟩
  | .local _ .vmem, ⟨19, _⟩ => ⟨S128x256, .bf16⟩
  | .local _ .vmem, ⟨20, _⟩ => ⟨S1x256, .f32⟩
  | .local _ .vmem, ⟨21, _⟩ => ⟨S256x128, .bf16⟩
  | .local _ .vmem, ⟨22, _⟩ => ⟨S1x128, .f32⟩
  | .local _ .vmem, ⟨23, _⟩ => ⟨S2000x128, .f32⟩
  | .local _ .vmem, ⟨24, _⟩ => ⟨S2000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bitsLt_bf16_f32 : FTy.bits .bf16 < FTy.bits .f32
  slices_S384x256_S128x256_0_0 : S384x256.Slices ![0, 0] S128x256
  slices_S384x256_S128x256_128_0 : S384x256.Slices ![128, 0] S128x256
  slices_S384x256_S128x256_256_0 : S384x256.Slices ![256, 0] S128x256
  shapeCasts_S256_S1x256 : S256.ShapeCasts S1x256
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S20000x128 : S_.BroadcastsInDim S20000x128 (![] : Fin 0 → Fin S20000x128.rank)
  slices_S256x256_S128x256_0_0 : S256x256.Slices ![0, 0] S128x256
  slices_S256x256_S128x256_128_0 : S256x256.Slices ![128, 0] S128x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x256_S2000x256 : S1x256.Broadcasts S2000x256
  broadcasts_S1x128_S2000x128 : S1x128.Broadcasts S2000x128
  gather_S20000x128_S640000x1_S640000x128_1_0_n_n_0_1_1128_wf : GatherDims.WF S20000x128 S640000x1 S640000x128 [1] [0] [] [0] [] 1 ![1, 128]
  dot_S4000x128_S128x256_S4000x256_1_0_0_1_n_n_wf : DotDims.WF S4000x128 S128x256 S4000x256 [1] [0] [0] [1] [] []
  dot_S4000x256_S256x128_S4000x128_1_0_0_1_n_n_wf : DotDims.WF S4000x256 S256x128 S4000x128 [1] [0] [0] [1] [] []
  scatter_S20000x128_S640000x1_S640000x128_1_0_0_1_wf : ScatterDims.WF S20000x128 S640000x1 S640000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S640000x128.size a
  hwx0_0 : ∀ i : grid0.Coords, EltTy.bits .bf16 = 32 ∨ (Rect.block (s := S640000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S640000x128.size a
  hwx0_1 : ∀ i : grid0.Coords, EltTy.bits .bf16 = 32 ∨ (Rect.block (s := S640000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S640000x128.size a
  hwx0_2 : ∀ i : grid0.Coords, EltTy.bits .bf16 = 32 ∨ (Rect.block (s := S640000x128) S4000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .bf16 = 32 ∨ (Rect.block (s := S256x128) S256x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S640000x128.size a
  hwx0_9 : ∀ i : grid0.Coords, EltTy.bits .f32 = 32 ∨ (Rect.block (s := S640000x128) S4000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .bf16 = 32 ∨ (Rect.block (s := S20000x128) S2000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S20000x128.size a
  hwx1_1 : ∀ i : grid1.Coords, EltTy.bits .bf16 = 32 ∨ (Rect.block (s := S20000x128) S2000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .bf16 = 32 ∨ (Rect.block (s := S128x256) S128x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .bf16 = 32 ∨ (Rect.block (s := S128x256) S128x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .bf16 = 32 ∨ (Rect.block (s := S256x128) S256x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S20000x128.size a
  hwx1_7 : ∀ i : grid1.Coords, EltTy.bits .f32 = 32 ∨ (Rect.block (s := S20000x128) S2000x128.size (cc1_transform_7 i) (hinb1_7 i)).WholeWords (EltTy.packing .f32)

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v14) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v26) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v30) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v39) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S20000x128 : Shape := ⟨2, ![20000, 128]⟩
abbrev S640000x128 : Shape := ⟨2, ![640000, 128]⟩
abbrev S640000 : Shape := ⟨1, ![640000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S_ : Shape := ⟨0, ![]⟩
abbrev S640000x1 : Shape := ⟨2, ![640000, 1]⟩
abbrev S640000x384 : Shape := ⟨2, ![640000, 384]⟩
abbrev S640000x256 : Shape := ⟨2, ![640000, 256]⟩
abbrev S1x256 : Shape := ⟨2, ![1, 256]⟩
abbrev S1x128 : Shape := ⟨2, ![1, 128]⟩
abbrev S20000x256 : Shape := ⟨2, ![20000, 256]⟩

abbrev nBuf : Space → Nat
  | .hbm => 58
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S384x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S256x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x128, .f32⟩
  | .hbm, ⟨30, _⟩ => ⟨S640000x384, .f32⟩
  | .hbm, ⟨31, _⟩ => ⟨S640000x256, .f32⟩
  | .hbm, ⟨32, _⟩ => ⟨S1x256, .f32⟩
  | .hbm, ⟨33, _⟩ => ⟨S640000x256, .f32⟩
  | .hbm, ⟨34, _⟩ => ⟨S640000x256, .f32⟩
  | .hbm, ⟨35, _⟩ => ⟨S_, .f32⟩
  | .hbm, ⟨36, _⟩ => ⟨S640000x256, .f32⟩
  | .hbm, ⟨37, _⟩ => ⟨S640000x256, .f32⟩
  | .hbm, ⟨38, _⟩ => ⟨S640000x128, .f32⟩
  | .hbm, ⟨39, _⟩ => ⟨S1x128, .f32⟩
  | .hbm, ⟨40, _⟩ => ⟨S640000x128, .f32⟩
  | .hbm, ⟨41, _⟩ => ⟨S640000x128, .f32⟩
  | .hbm, ⟨42, _⟩ => ⟨S_, .f32⟩
  | .hbm, ⟨43, _⟩ => ⟨S20000x128, .f32⟩
  | .hbm, ⟨44, _⟩ => ⟨S640000x1, .i32⟩
  | .hbm, ⟨45, _⟩ => ⟨S20000x128, .f32⟩
  | .hbm, ⟨46, _⟩ => ⟨S20000x256, .f32⟩
  | .hbm, ⟨47, _⟩ => ⟨S20000x256, .f32⟩
  | .hbm, ⟨48, _⟩ => ⟨S1x256, .f32⟩
  | .hbm, ⟨49, _⟩ => ⟨S20000x256, .f32⟩
  | .hbm, ⟨50, _⟩ => ⟨S20000x256, .f32⟩
  | .hbm, ⟨51, _⟩ => ⟨S_, .f32⟩
  | .hbm, ⟨52, _⟩ => ⟨S20000x256, .f32⟩
  | .hbm, ⟨53, _⟩ => ⟨S20000x256, .f32⟩
  | .hbm, ⟨54, _⟩ => ⟨S20000x128, .f32⟩
  | .hbm, ⟨55, _⟩ => ⟨S1x128, .f32⟩
  | .hbm, ⟨56, _⟩ => ⟨S20000x128, .f32⟩
  | .hbm, ⟨57, _⟩ => ⟨S20000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call1_cst : Ref sig .tc := ⟨.hbm, 51, rfl⟩
abbrev main_call1_v0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x128_S640000x384_d1 : Shape.Concatenates [S640000x128, S640000x128, S640000x128] S640000x384 1
  bcast_S256_S1x256_1 : S256.BroadcastsInDim S1x256 (![1] : Fin 1 → Fin S1x256.rank)
  bcast_S1x256_S640000x256_0_1 : S1x256.BroadcastsInDim S640000x256 (![0, 1] : Fin 2 → Fin S640000x256.rank)
  bcast_S_S640000x256 : S_.BroadcastsInDim S640000x256 (![] : Fin 0 → Fin S640000x256.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S20000x128 : S_.BroadcastsInDim S20000x128 (![] : Fin 0 → Fin S20000x128.rank)
  concatenates_S20000x128_S20000x128_S20000x256_d1 : Shape.Concatenates [S20000x128, S20000x128] S20000x256 1
  bcast_S1x256_S20000x256_0_1 : S1x256.BroadcastsInDim S20000x256 (![0, 1] : Fin 2 → Fin S20000x256.rank)
  bcast_S_S20000x256 : S_.BroadcastsInDim S20000x256 (![] : Fin 0 → Fin S20000x256.rank)
  bcast_S1x128_S20000x128_0_1 : S1x128.BroadcastsInDim S20000x128 (![0, 1] : Fin 2 → Fin S20000x128.rank)
  gather_S20000x128_S640000x1_S640000x128_1_0_n_n_0_1_1128_wf : GatherDims.WF S20000x128 S640000x1 S640000x128 [1] [0] [] [0] [] 1 ![1, 128]
  dot_S640000x384_S384x256_S640000x256_1_0_0_1_n_n_wf : DotDims.WF S640000x384 S384x256 S640000x256 [1] [0] [0] [1] [] []
  dot_S640000x256_S256x128_S640000x128_1_0_0_1_n_n_wf : DotDims.WF S640000x256 S256x128 S640000x128 [1] [0] [0] [1] [] []
  scatter_S20000x128_S640000x1_S640000x128_1_0_0_1_wf : ScatterDims.WF S20000x128 S640000x1 S640000x128 [1] [0] [0] 1
  dot_S20000x256_S256x256_S20000x256_1_0_0_1_n_n_wf : DotDims.WF S20000x256 S256x256 S20000x256 [1] [0] [0] [1] [] []
  dot_S20000x256_S256x128_S20000x128_1_0_0_1_n_n_wf : DotDims.WF S20000x256 S256x128 S20000x128 [1] [0] [0] [1] [] []

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S640000x384_S384x256_S640000x256_1_0_0_1_n_n : DotDims S640000x384 S384x256 S640000x256 where
  lhsContracting := [1]
  rhsContracting := [0]
  lhsNonContracting := [0]
  rhsNonContracting := [1]
  lhsBatch := []
  rhsBatch := []
  wf := dot_S640000x384_S384x256_S640000x256_1_0_0_1_n_n_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf

class Facts : Prop extends Facts₀ where

variable [Facts]
-- ==== Proof.LibPlainDot.lean ====
/-
  A plain two-dimensional matrix product read at an entry.

  For a dot whose dimension numbers are those of `rows × contraction` times `contraction × columns` — left
  contracting axis 1, right contracting axis 0, the remaining left axis then the remaining right axis as the result's
  axes, no batch axis — the left operand's index at result entry `(p, q)` and contraction position `k` is `(p, k)`,
  the right operand's is `(k, q)`. So, on the extended reals, a kernel's `matmul` into the zero accumulator and a
  host `dot_general` are both the textbook sum `∑ k, l (p, k) * r (k, q)` over `k : Fin K`.

  The dimension record is a variable; its printed fields enter as hypotheses (each is `rfl` for a printed record).
-/
import Idealize.ShloMosaic.PureOps.Ideal
import Idealize.ShloMosaic.PureOps.Ideal.Laws
import Idealize.ShloMosaic.Lib.ValueIdx

noncomputable section

namespace Cert.PlainDot

open Idealize.ShloMosaic Idealize.ShloMosaic.ValueIdx

variable {R K C : ℕ} (d : DotDims (⟨2, ![R, K]⟩ : Shape) (⟨2, ![K, C]⟩ : Shape) (⟨2, ![R, C]⟩ : Shape))

/-- A coordinate of an index depends only on the axis' position. -/
private theorem coord_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hlb : d.lhsBatch = []) (hln : d.lhsNonContracting = [0])
    (j : (⟨2, ![R, C]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The left operand's column is the contraction position. -/
theorem lhs_col (hlc : d.lhsContracting = [1]) (j : (⟨2, ![R, C]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![R, C]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0]) (hrn : d.rhsNonContracting = [1])
    (j : (⟨2, ![R, C]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- The contraction shape has one axis, of extent `K`. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  rw [d.size_contr 0 (by rw [hlc]; exact Nat.one_pos)]
  simp [hlc]

/-- THE SUM over the dot's own contraction index, re-indexed by `k : Fin K` with the operands read at `(p, k)` and `(k, q)`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![R, K]⟩ : Shape).Idx → EReal) (r : (⟨2, ![K, C]⟩ : Shape).Idx → EReal) (p : Fin R) (q : Fin C) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_row d hlb hln _ _
    | ⟨1, _⟩ => exact (lhs_col d hlc _ _).trans hk
  have er : d.rhsIdx (ix2 p q) ((contrEquiv1 d K (contr_rank d hlc) (contr_size d hlc)).symm k) = ix2 k q := by
    funext a; apply Fin.ext
    match a with
    | ⟨0, _⟩ => exact (rhs_row d hrc _ _).trans hk
    | ⟨1, _⟩ => exact rhs_col d hlb hrb hln hrn _ _
  rw [el, er]

/-- A kernel's matrix product into the zero accumulator, at an entry, on the extended reals. -/
theorem matmul_zero_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision)
    (l : FVec Ideal (⟨2, ![R, K]⟩ : Shape) φ₁) (r : FVec Ideal (⟨2, ![K, C]⟩ : Shape) φ₂) (p : Fin R) (q : Fin C) :
    FloatOps.matmul d prec l r (constant (⟨2, ![R, C]⟩ : Shape) .f32 0x00000000#32) (ix2 p q) = ∑ k : Fin K, l (ix2 p k) * r (ix2 k q) :=
  (Ideal.matmul_constant_zero_apply d prec l r (ix2 p q)).trans (sum_contr d hlc hrc hln hrn hlb hrb l r p q)

/-- The host's `dot_general`, at an entry, on the extended reals: the same sum. -/
theorem dotGeneral_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision) (sched : HostSchedule)
    (l : FVec Ideal (⟨2, ![R, K]⟩ : Shape) φ₁) (r : FVec Ideal (⟨2, ![K, C]⟩ : Shape) φ₂) (p : Fin R) (q : Fin C) :
    FloatOps.dotGeneral d prec sched l r (ix2 p q) = ∑ k : Fin K, l (ix2 p k) * r (ix2 k q) :=
  (Ideal.dotGeneral_apply d prec sched l r (ix2 p q)).trans (sum_contr d hlc hrc hln hrn hlb hrb l r p q)

end Cert.PlainDot

end
-- ==== Proof.MlpSpec.lean ====
/-
  The mathematics of this certificate, in one spelling both programs are read into.

  A two-layer perceptron applied row by row: the hidden pre-activation of row `e` at unit `h` is a sum of
  matrix products of row `e` of each input with that input's own weight block, plus a bias; the output of row `e` at
  column `j` is the ReLU of the pre-activations times the second weight matrix, plus the second bias. The edge update has
  three inputs (edge features, sender features, receiver features), the node update two (aggregated messages, node features).

  Everything is on the extended reals, where addition is a commutative monoid: a sum over `Fin 384` splits into three sums
  over `Fin 128` (and one over `Fin 256` into two) with no finiteness hypothesis. A row of the output depends only on the same
  row of each input, which is what makes a block of rows of the result the result of the block of rows.
-/
import Idealize.ShloMosaic.PureOps.Ideal
import Idealize.ShloMosaic.Lib.ValueIdx
import Mathlib.Algebra.BigOperators.Fin

noncomputable section

namespace Cert.Mlp

open Idealize.ShloMosaic Idealize.ShloMosaic.ValueIdx

/-- One input's contribution to the hidden pre-activation: row `e` of `a` times column `h` of its weight block. -/
def term {E : ℕ} (a : (⟨2, ![E, 128]⟩ : Shape).Idx → EReal) (W : (⟨2, ![128, 256]⟩ : Shape).Idx → EReal) (e : Fin E) (h : Fin 256) : EReal :=
  ∑ k : Fin 128, a (ix2 e k) * W (ix2 k h)

/-- The edge update's hidden pre-activation: three inputs, three weight blocks, a bias. -/
def pre3 {E : ℕ} (a b c : (⟨2, ![E, 128]⟩ : Shape).Idx → EReal) (Wa Wb Wc : (⟨2, ![128, 256]⟩ : Shape).Idx → EReal)
    (b1 : Fin 256 → EReal) (e : Fin E) (h : Fin 256) : EReal :=
  term a Wa e h + term b Wb e h + term c Wc e h + b1 h

/-- The node update's hidden pre-activation: two inputs, two weight blocks, a bias. -/
def pre2 {E : ℕ} (a b : (⟨2, ![E, 128]⟩ : Shape).Idx → EReal) (Wa Wb : (⟨2, ![128, 256]⟩ : Shape).Idx → EReal)
    (b1 : Fin 256 → EReal) (e : Fin E) (h : Fin 256) : EReal :=
  term a Wa e h + term b Wb e h + b1 h

/-- The second layer over any hidden pre-activation: ReLU, the second weight matrix, the second bias. -/
def out2 {E : ℕ} (pre : Fin E → Fin 256 → EReal) (W2 : (⟨2, ![256, 128]⟩ : Shape).Idx → EReal) (b2 : Fin 128 → EReal) :
    (⟨2, ![E, 128]⟩ : Shape).Idx → EReal := fun i =>
  (∑ h : Fin 256, max (pre (i 0) h) 0 * W2 (ix2 h (i 1))) + b2 (i 1)

theorem out2_ix2 {E : ℕ} (pre : Fin E → Fin 256 → EReal) (W2 : (⟨2, ![256, 128]⟩ : Shape).Idx → EReal) (b2 : Fin 128 → EReal)
    (e : Fin E) (j : Fin 128) : out2 pre W2 b2 (ix2 e j) = (∑ h : Fin 256, max (pre e h) 0 * W2 (ix2 h j)) + b2 j := rfl

/-- Rows `off … off + 127` of a taller first-layer weight matrix: one input's weight block. -/
def rowsOf {R : ℕ} (off : ℕ) (hoff : off + 128 ≤ R) (W : (⟨2, ![R, 256]⟩ : Shape).Idx → EReal) :
    (⟨2, ![128, 256]⟩ : Shape).Idx → EReal :=
  fun i => W (ix2 (⟨off + (i 0).val, by have := idx2_lt0 i; omega⟩ : Fin R) (i 1))

theorem rowsOf_ix2 {R : ℕ} (off : ℕ) (hoff : off + 128 ≤ R) (W : (⟨2, ![R, 256]⟩ : Shape).Idx → EReal) (k : Fin 128) (h : Fin 256) :
    rowsOf off hoff W (ix2 k h) = W (ix2 (⟨off + k.val, by have := k.isLt; omega⟩ : Fin R) h) := rfl

theorem rowsOf_zero_ix2 {R : ℕ} (hoff : 0 + 128 ≤ R) (W : (⟨2, ![R, 256]⟩ : Shape).Idx → EReal) (k : Fin 128) (h : Fin 256) :
    rowsOf 0 hoff W (ix2 k h) = W (ix2 (⟨k.val, by have := k.isLt; omega⟩ : Fin R) h) :=
  congrArg W (funext fun a => Fin.ext (by match a with | ⟨0, _⟩ => exact Nat.zero_add _ | ⟨1, _⟩ => rfl))

/-! ## Rows: the output's row depends on the inputs' same row only -/

theorem term_congr {E E' : ℕ} (a : (⟨2, ![E, 128]⟩ : Shape).Idx → EReal) (a' : (⟨2, ![E', 128]⟩ : Shape).Idx → EReal)
    (W : (⟨2, ![128, 256]⟩ : Shape).Idx → EReal) (e : Fin E) (e' : Fin E') (ha : ∀ k : Fin 128, a (ix2 e k) = a' (ix2 e' k)) (h : Fin 256) :
    term a W e h = term a' W e' h :=
  Finset.sum_congr rfl fun k _ => by rw [ha k]

theorem pre3_congr {E E' : ℕ} (a b c : (⟨2, ![E, 128]⟩ : Shape).Idx → EReal) (a' b' c' : (⟨2, ![E', 128]⟩ : Shape).Idx → EReal)
    (Wa Wb Wc : (⟨2, ![128, 256]⟩ : Shape).Idx → EReal) (b1 : Fin 256 → EReal) (e : Fin E) (e' : Fin E')
    (ha : ∀ k : Fin 128, a (ix2 e k) = a' (ix2 e' k)) (hb : ∀ k : Fin 128, b (ix2 e k) = b' (ix2 e' k))
    (hc : ∀ k : Fin 128, c (ix2 e k) = c' (ix2 e' k)) (h : Fin 256) :
    pre3 a b c Wa Wb Wc b1 e h = pre3 a' b' c' Wa Wb Wc b1 e' h := by
  unfold pre3
  rw [term_congr a a' Wa e e' ha h, term_congr b b' Wb e e' hb h, term_congr c c' Wc e e' hc h]

theorem pre2_congr {E E' : ℕ} (a b : (⟨2, ![E, 128]⟩ : Shape).Idx → EReal) (a' b' : (⟨2, ![E', 128]⟩ : Shape).Idx → EReal)
    (Wa Wb : (⟨2, ![128, 256]⟩ : Shape).Idx → EReal) (b1 : Fin 256 → EReal) (e : Fin E) (e' : Fin E')
    (ha : ∀ k : Fin 128, a (ix2 e k) = a' (ix2 e' k)) (hb : ∀ k : Fin 128, b (ix2 e k) = b' (ix2 e' k)) (h : Fin 256) :
    pre2 a b Wa Wb b1 e h = pre2 a' b' Wa Wb b1 e' h := by
  unfold pre2
  rw [term_congr a a' Wa e e' ha h, term_congr b b' Wb e e' hb h]

theorem out2_congr {E E' : ℕ} (pre : Fin E → Fin 256 → EReal) (pre' : Fin E' → Fin 256 → EReal)
    (W2 : (⟨2, ![256, 128]⟩ : Shape).Idx → EReal) (b2 : Fin 128 → EReal) (e : Fin E) (e' : Fin E') (j : Fin 128)
    (hpre : ∀ h, pre e h = pre' e' h) : out2 pre W2 b2 (ix2 e j) = out2 pre' W2 b2 (ix2 e' j) := by
  rw [out2_ix2, out2_ix2]
  exact congrArg (· + b2 j) (Finset.sum_congr rfl fun h _ => by rw [hpre h])

/-! ## A long sum in pieces -/

/-- A sum of 384 terms is the sum of its three runs of 128. -/
theorem sum_split3 (f : Fin 384 → EReal) :
    ∑ k : Fin 384, f k = (∑ k : Fin 128, f ⟨k.val, by omega⟩) + (∑ k : Fin 128, f ⟨128 + k.val, by omega⟩)
      + ∑ k : Fin 128, f ⟨256 + k.val, by omega⟩ := by
  show ∑ k : Fin (128 + 128 + 128), f k = _
  rw [Fin.sum_univ_add, Fin.sum_univ_add]
  rfl

/-- A sum of 256 terms is the sum of its two runs of 128. -/
theorem sum_split2 (f : Fin 256 → EReal) :
    ∑ k : Fin 256, f k = (∑ k : Fin 128, f ⟨k.val, by omega⟩) + ∑ k : Fin 128, f ⟨128 + k.val, by omega⟩ := by
  show ∑ k : Fin (128 + 128), f k = _
  rw [Fin.sum_univ_add]
  rfl

end Cert.Mlp

end
-- ==== Proof.EdgeBody.lean ====
/-
  The edge update's body on one block of rows, read on the extended reals.

  The body multiplies the block of edge features, the block of gathered sender features and the block of gathered receiver
  features each by its own 128-row block of the first weight matrix (three matrix products into zero accumulators), adds the
  three and the first bias, takes the maximum with zero, multiplies by the second weight matrix and adds the second bias. Read
  entry by entry, with every change of float format the identity, that is the two-layer perceptron of the specification on the
  block's rows.
-/
import proofs.«164399_j64424509440354_1_alg».proof.Proof.Gen.KernelIdeal.Skeleton
import proofs.«164399_j64424509440354_1_alg».proof.Proof.LibPlainDot
import proofs.«164399_j64424509440354_1_alg».proof.Proof.MlpSpec
import Idealize.ShloMosaic.Lib.Pipeline.Value
import Idealize.ShloMosaic.Lib.ValueLayout

noncomputable section

namespace Cert.KernelIdeal.EdgeBody

open Cert.KernelIdeal Cert.KernelIdeal.Gen Idealize.ShloMosaic Idealize.ShloMosaic.ValueIdx Cert.Mlp

/-- The hidden layer of the edge body at row `r`, unit `h`: the maximum with zero of the specification's pre-activation. -/
theorem edge_hidden (x0 x1 x2 : FVec Ideal S4000x128 .bf16) (x3 x4 x5 : FVec Ideal S128x256 .bf16) (x6 : FVec Ideal S1x256 .f32)
    (r : Fin 4000) (h : Fin 256) :
    maximumf (addf (addf (addf
        (matmul dot_S4000x128_S128x256_S4000x256_1_0_0_1_n_n none x0 x3 (constant S4000x256 .f32 0x00000000#32))
        (matmul dot_S4000x128_S128x256_S4000x256_1_0_0_1_n_n none x1 x4 (constant S4000x256 .f32 0x00000000#32)))
        (matmul dot_S4000x128_S128x256_S4000x256_1_0_0_1_n_n none x2 x5 (constant S4000x256 .f32 0x00000000#32)))
        (broadcastTo S4000x256 x6 broadcasts_S1x256_S4000x256))
      (broadcast S4000x256 (Scalar.ofBits (F := Ideal) .f32 0x00000000#32)) (ix2 r h)
    = max (pre3 x0 x1 x2 x3 x4 x5 (fun h => x6 (ix2 (0 : Fin 1) h)) r h) 0 := by
  show max (FloatOps.matmul _ none x0 x3 _ (ix2 r h) + FloatOps.matmul _ none x1 x4 _ (ix2 r h) + FloatOps.matmul _ none x2 x5 _ (ix2 r h)
      + broadcastTo S4000x256 x6 broadcasts_S1x256_S4000x256 (ix2 r h)) (Ideal.ofBits .f32 0x00000000#32) = _
  rw [PlainDot.matmul_zero_apply _ rfl rfl rfl rfl rfl rfl, PlainDot.matmul_zero_apply _ rfl rfl rfl rfl rfl rfl,
    PlainDot.matmul_zero_apply _ rfl rfl rfl rfl rfl rfl, broadcastTo_1b_ab_apply, Ideal.ofBits_zero_f32]
  rfl

/-- THE EDGE BODY's stored value is the specification's perceptron of the loaded blocks. -/
theorem edge_body (x0 x1 x2 : Vec Ideal S4000x128 .bf16) (x3 x4 x5 : Vec Ideal S128x256 .bf16) (x6 : Vec Ideal S1x256 .f32)
    (x7 : Vec Ideal S256x128 .bf16) (x8 : Vec Ideal S1x128 .f32) :
    k0_pay1 (F := Ideal) x0 x3 x1 x4 x2 x5 x6 x7 x8
      = out2 (pre3 x0 x1 x2 x3 x4 x5 (fun h => x6 (ix2 (0 : Fin 1) h))) x7 (fun j => x8 (ix2 (0 : Fin 1) j)) := by
  funext i
  obtain ⟨r, j, rfl⟩ : ∃ (r : Fin 4000) (j : Fin 128), i = ix2 r j := ⟨i 0, i 1, eq_ix2 i⟩
  unfold k0_pay1
  rw [shapeCast_self x0, shapeCast_self x1, shapeCast_self x2, shapeCast_self x3, shapeCast_self x4, shapeCast_self x5,
    shapeCast_self x6, shapeCast_self x7, shapeCast_self x8]
  show FloatOps.matmul (F := Ideal) _ none _ x7 _ (ix2 r j) + broadcastTo S4000x128 x8 broadcasts_S1x128_S4000x128 (ix2 r j) = _
  rw [PlainDot.matmul_zero_apply _ rfl rfl rfl rfl rfl rfl, broadcastTo_1b_ab_apply, out2_ix2]
  refine congrArg (· + x8 (ix2 (0 : Fin 1) j)) (Finset.sum_congr rfl fun h _ => ?_)
  exact congrArg (· * x7 (ix2 h j)) (edge_hidden x0 x1 x2 x3 x4 x5 x6 r h)

end Cert.KernelIdeal.EdgeBody

end
-- ==== Proof.EdgeValue.lean ====
/-
  The edge update's array after its region: the perceptron of the specification applied to the arrays the region is
  entered with, row by row.

  The grid has 160 points; point `t` is handed rows `4000 t … 4000 t + 3999` of the three per-edge inputs and the whole of
  each weight and bias, and writes back rows `4000 t … 4000 t + 3999` of the output. A row of the perceptron's output depends
  only on the same row of its inputs, so what point `t` writes back is block `t` of ONE whole-array function; the 160 blocks
  tile the 640000 rows, so the array ends holding that function.
-/
import proofs.«164399_j64424509440354_1_alg».proof.Proof.Gen.KernelIdeal.Frame
import proofs.«164399_j64424509440354_1_alg».proof.Proof.EdgeBody
import Idealize.ShloMosaic.Lib.Pipeline.Value

set_option maxRecDepth 16384

noncomputable section

namespace Cert.KernelIdeal.EdgeValue

open Cert.KernelIdeal Cert.KernelIdeal.Gen Idealize.ShloMosaic Idealize.ShloMosaic.ValueIdx Idealize.ShloMosaic.TcCoe
open Idealize.SL.Sem Cert.Mlp
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The edge update of the arrays as the region finds them: per-edge inputs in windows 0, 1, 2, their weight blocks in
    windows 3, 4, 5, the first bias in window 6, the second layer's weights and bias in windows 7 and 8. -/
abbrev G (c : Dev nD) : S640000x128.Idx → EReal :=
  out2 (pre3 (V c main_v14) (V c main_v15) (V c main_v16) (V c main_v18) (V c main_v20) (V c main_v22)
      (fun h => V c main_v24 (ix2 (0 : Fin 1) h))) (V c main_v23) (fun j => V c main_v25 (ix2 (0 : Fin 1) j))

/-- The printed index maps over the grid: the row-blocked windows move with the point, the others stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Row `r` of point `t`'s block is row `4000 t + r` of the array. -/
def row (t : Fin cfg0.N) (r : Fin 4000) : Fin 640000 :=
  ⟨t.val * 4000 + r.val, by have ht : t.val < 160 := t.isLt; have hr := r.isLt; omega⟩

/-! ## Each input window's block, read off its array -/

theorem blk_rows0 (c : Dev nD) (t : Fin cfg0.N) (r : Fin 4000) (k : Fin 128) :
    iblk0 V c 0 t (ix2 r k) = V c main_v14 (ix2 (row t r) k) := by
  show V c main_v14 (((cfg0.win 0).blk t).view.emb (ix2 r k)) = _
  refine congrArg _ (funext fun a => Fin.ext ?_)
  have hf := idx_facts t
  match a with
  | ⟨0, _⟩ => show win0_0.index t (0 : Fin 2) * 4000 + 1 * r.val = t.val * 4000 + r.val; omega
  | ⟨1, _⟩ => show win0_0.index t (1 : Fin 2) * 128 + 1 * k.val = k.val; omega

theorem blk_rows1 (c : Dev nD) (t : Fin cfg0.N) (r : Fin 4000) (k : Fin 128) :
    iblk0 V c 1 t (ix2 r k) = V c main_v15 (ix2 (row t r) k) := by
  show V c main_v15 (((cfg0.win 1).blk t).view.emb (ix2 r k)) = _
  refine congrArg _ (funext fun a => Fin.ext ?_)
  have hf := idx_facts t
  match a with
  | ⟨0, _⟩ => show win0_1.index t (0 : Fin 2) * 4000 + 1 * r.val = t.val * 4000 + r.val; omega
  | ⟨1, _⟩ => show win0_1.index t (1 : Fin 2) * 128 + 1 * k.val = k.val; omega

theorem blk_rows2 (c : Dev nD) (t : Fin cfg0.N) (r : Fin 4000) (k : Fin 128) :
    iblk0 V c 2 t (ix2 r k) = V c main_v16 (ix2 (row t r) k) := by
  show V c main_v16 (((cfg0.win 2).blk t).view.emb (ix2 r k)) = _
  refine congrArg _ (funext fun a => Fin.ext ?_)
  have hf := idx_facts t
  match a with
  | ⟨0, _⟩ => show win0_2.index t (0 : Fin 2) * 4000 + 1 * r.val = t.val * 4000 + r.val; omega
  | ⟨1, _⟩ => show win0_2.index t (1 : Fin 2) * 128 + 1 * k.val = k.val; omega

theorem blk_w3 (c : Dev nD) (t : Fin cfg0.N) : iblk0 V c 3 t = V c main_v18 := by
  funext y
  show V c main_v18 (((cfg0.win 3).blk t).view.emb y) = V c main_v18 y
  refine congrArg _ (funext fun a => Fin.ext ?_)
  have hf := idx_facts t
  match a with
  | ⟨0, _⟩ => show win0_3.index t (0 : Fin 2) * 128 + 1 * (y 0).val = (y 0).val; omega
  | ⟨1, _⟩ => show win0_3.index t (1 : Fin 2) * 256 + 1 * (y 1).val = (y 1).val; omega

theorem blk_w4 (c : Dev nD) (t : Fin cfg0.N) : iblk0 V c 4 t = V c main_v20 := by
  funext y
  show V c main_v20 (((cfg0.win 4).blk t).view.emb y) = V c main_v20 y
  refine congrArg _ (funext fun a => Fin.ext ?_)
  have hf := idx_facts t
  match a with
  | ⟨0, _⟩ => show win0_4.index t (0 : Fin 2) * 128 + 1 * (y 0).val = (y 0).val; omega
  | ⟨1, _⟩ => show win0_4.index t (1 : Fin 2) * 256 + 1 * (y 1).val = (y 1).val; omega

theorem blk_w5 (c : Dev nD) (t : Fin cfg0.N) : iblk0 V c 5 t = V c main_v22 := by
  funext y
  show V c main_v22 (((cfg0.win 5).blk t).view.emb y) = V c main_v22 y
  refine congrArg _ (funext fun a => Fin.ext ?_)
  have hf := idx_facts t
  match a with
  | ⟨0, _⟩ => show win0_5.index t (0 : Fin 2) * 128 + 1 * (y 0).val = (y 0).val; omega
  | ⟨1, _⟩ => show win0_5.index t (1 : Fin 2) * 256 + 1 * (y 1).val = (y 1).val; omega

theorem blk_w6 (c : Dev nD) (t : Fin cfg0.N) : iblk0 V c 6 t = V c main_v24 := by
  funext y
  show V c main_v24 (((cfg0.win 6).blk t).view.emb y) = V c main_v24 y
  refine congrArg _ (funext fun a => Fin.ext ?_)
  have hf := idx_facts t
  match a with
  | ⟨0, _⟩ => show win0_6.index t (0 : Fin 2) * 1 + 1 * (y 0).val = (y 0).val; omega
  | ⟨1, _⟩ => show win0_6.index t (1 : Fin 2) * 256 + 1 * (y 1).val = (y 1).val; omega

theorem blk_w7 (c : Dev nD) (t : Fin cfg0.N) : iblk0 V c 7 t = V c main_v23 := by
  funext y
  show V c main_v23 (((cfg0.win 7).blk t).view.emb y) = V c main_v23 y
  refine congrArg _ (funext fun a => Fin.ext ?_)
  have hf := idx_facts t
  match a with
  | ⟨0, _⟩ => show win0_7.index t (0 : Fin 2) * 256 + 1 * (y 0).val = (y 0).val; omega
  | ⟨1, _⟩ => show win0_7.index t (1 : Fin 2) * 128 + 1 * (y 1).val = (y 1).val; omega

theorem blk_w8 (c : Dev nD) (t : Fin cfg0.N) : iblk0 V c 8 t = V c main_v25 := by
  funext y
  show V c main_v25 (((cfg0.win 8).blk t).view.emb y) = V c main_v25 y
  refine congrArg _ (funext fun a => Fin.ext ?_)
  have hf := idx_facts t
  match a with
  | ⟨0, _⟩ => show win0_8.index t (0 : Fin 2) * 1 + 1 * (y 0).val = (y 0).val; omega
  | ⟨1, _⟩ => show win0_8.index t (1 : Fin 2) * 128 + 1 * (y 1).val = (y 1).val; omega

/-! ## What a point writes back -/

/-- WHAT POINT `t` WRITES BACK is block `t` of `G`. -/
theorem flushed (c : Dev nD) (t : Fin cfg0.N) :
    (dat0 V c).flushed 9 t = ((cfg0.win 9).blk t).view.read (Elt Ideal) (G V c) := by
  show (cfg0.win 9).cut (grid0.coords t) ((dat0 V c).after 9 t) = _
  rw [after0_9]
  unfold out0_9
  rw [View.canon_unit_zero hz]
  simp only [View.ld_unit_zero (S := S4000x128) hz, View.ld_unit_zero (S := S128x256) hz, View.ld_unit_zero (S := S1x256) hz,
    View.ld_unit_zero (S := S256x128) hz, View.ld_unit_zero (S := S1x128) hz]
  rw [EdgeBody.edge_body, blk_w3 V c t, blk_w4 V c t, blk_w5 V c t, blk_w6 V c t, blk_w7 V c t, blk_w8 V c t]
  funext y
  obtain ⟨r, j, rfl⟩ : ∃ (r : Fin 4000) (j : Fin 128), y = ix2 r j := ⟨y 0, y 1, eq_ix2 y⟩
  have hemb : ((cfg0.win 9).blk t).view.emb (ix2 r j) = ix2 (row t r) j := by
    funext a; apply Fin.ext
    have hf := idx_facts t
    match a with
    | ⟨0, _⟩ => show win0_9.index t (0 : Fin 2) * 4000 + 1 * r.val = t.val * 4000 + r.val; omega
    | ⟨1, _⟩ => show win0_9.index t (1 : Fin 2) * 128 + 1 * j.val = j.val; omega
  show out2 _ _ _ (ix2 r j) = G V c (((cfg0.win 9).blk t).view.emb (ix2 r j))
  rw [hemb]
  exact out2_congr _ _ _ _ r (row t r) j fun h =>
    pre3_congr _ _ _ _ _ _ _ _ _ _ r (row t r) (blk_rows0 V c t r) (blk_rows1 V c t r) (blk_rows2 V c t r) h

/-! ## The blocks tile the array -/

theorem mem_blk (t : Fin cfg0.N) (i : S640000x128.Idx) :
    i ∈ ((cfg0.win 9).blk t).view.set ↔ ∀ a : Fin 2, win0_9.index t a * S4000x128.size a ≤ (i a).val
      ∧ (i a).val < win0_9.index t a * S4000x128.size a + S4000x128.size a := by
  show i ∈ ((View.whole main_v26).slice (win0_9.rect t)).set ↔ _
  rw [View.set_slice_whole, Rect.mem_set_unit]
  exact Iff.rfl

/-- Row `e` lies in the block of point `e / 4000`. -/
theorem cover (i : S640000x128.Idx) : ∃ t : Fin cfg0.N, (cfg0.win 9).flush t = true ∧ i ∈ ((cfg0.win 9).blk t).view.set := by
  have hi0 : (i 0).val < 640000 := (i 0).isLt
  have hi1 : (i 1).val < 128 := (i 1).isLt
  obtain ⟨t, ht⟩ : ∃ t : Fin cfg0.N, t.val = (i 0).val / 4000 := ⟨⟨(i 0).val / 4000, by show _ < 160; omega⟩, rfl⟩
  refine ⟨t, flush0_9 t, ?_⟩
  rw [mem_blk]
  have hf := idx_facts t
  intro a
  match a with
  | ⟨0, _⟩ =>
    show win0_9.index t (0 : Fin 2) * 4000 ≤ (i 0).val ∧ (i 0).val < win0_9.index t (0 : Fin 2) * 4000 + 4000
    omega
  | ⟨1, _⟩ =>
    show win0_9.index t (1 : Fin 2) * 128 ≤ (i 1).val ∧ (i 1).val < win0_9.index t (1 : Fin 2) * 128 + 128
    omega

/-- THE ARRAY after the region: the edge update of the arrays the region is entered with. -/
theorem final (c : Dev nD) : (dat0 V c).arrAt 9 cfg0.N = G V c :=
  (dat0 V c).arrAt_eq_of_cover 9 (G V c) (fun t _ => flushed V c t) cover

end Cert.KernelIdeal.EdgeValue

end
-- ==== Proof.NodeBody.lean ====
/-
  The node update's body on one block of rows, read on the extended reals.

  The body multiplies the block of aggregated messages and the block of node features each by its own 128-row block of the
  first weight matrix (two matrix products into zero accumulators), adds the two and the first bias, takes the maximum with
  zero, multiplies by the second weight matrix and adds the second bias: the specification's perceptron with two inputs,
  on the block's rows.
-/
import proofs.«164399_j64424509440354_1_alg».proof.Proof.Gen.KernelIdeal.Skeleton
import proofs.«164399_j64424509440354_1_alg».proof.Proof.LibPlainDot
import proofs.«164399_j64424509440354_1_alg».proof.Proof.MlpSpec
import Idealize.ShloMosaic.Lib.Pipeline.Value
import Idealize.ShloMosaic.Lib.ValueLayout

noncomputable section

namespace Cert.KernelIdeal.NodeBody

open Cert.KernelIdeal Cert.KernelIdeal.Gen Idealize.ShloMosaic Idealize.ShloMosaic.ValueIdx Cert.Mlp

/-- The hidden layer of the node body at row `r`, unit `h`: the maximum with zero of the specification's pre-activation. -/
theorem node_hidden (x0 x1 : FVec Ideal S2000x128 .bf16) (x2 x3 : FVec Ideal S128x256 .bf16) (x4 : FVec Ideal S1x256 .f32)
    (r : Fin 2000) (h : Fin 256) :
    maximumf (addf (addf
        (matmul dot_S2000x128_S128x256_S2000x256_1_0_0_1_n_n none x0 x2 (constant S2000x256 .f32 0x00000000#32))
        (matmul dot_S2000x128_S128x256_S2000x256_1_0_0_1_n_n none x1 x3 (constant S2000x256 .f32 0x00000000#32)))
        (broadcastTo S2000x256 x4 broadcasts_S1x256_S2000x256))
      (broadcast S2000x256 (Scalar.ofBits (F := Ideal) .f32 0x00000000#32)) (ix2 r h)
    = max (pre2 x0 x1 x2 x3 (fun h => x4 (ix2 (0 : Fin 1) h)) r h) 0 := by
  show max (FloatOps.matmul _ none x0 x2 _ (ix2 r h) + FloatOps.matmul _ none x1 x3 _ (ix2 r h)
      + broadcastTo S2000x256 x4 broadcasts_S1x256_S2000x256 (ix2 r h)) (Ideal.ofBits .f32 0x00000000#32) = _
  rw [PlainDot.matmul_zero_apply _ rfl rfl rfl rfl rfl rfl, PlainDot.matmul_zero_apply _ rfl rfl rfl rfl rfl rfl,
    broadcastTo_1b_ab_apply, Ideal.ofBits_zero_f32]
  rfl

/-- THE NODE BODY's stored value is the specification's perceptron of the loaded blocks. -/
theorem node_body (x0 x1 : Vec Ideal S2000x128 .bf16) (x2 x3 : Vec Ideal S128x256 .bf16) (x4 : Vec Ideal S1x256 .f32)
    (x5 : Vec Ideal S256x128 .bf16) (x6 : Vec Ideal S1x128 .f32) :
    k1_pay1 (F := Ideal) x0 x2 x1 x3 x4 x5 x6
      = out2 (pre2 x0 x1 x2 x3 (fun h => x4 (ix2 (0 : Fin 1) h))) x5 (fun j => x6 (ix2 (0 : Fin 1) j)) := by
  funext i
  obtain ⟨r, j, rfl⟩ : ∃ (r : Fin 2000) (j : Fin 128), i = ix2 r j := ⟨i 0, i 1, eq_ix2 i⟩
  unfold k1_pay1
  rw [shapeCast_self x0, shapeCast_self x1, shapeCast_self x2, shapeCast_self x3, shapeCast_self x4, shapeCast_self x5,
    shapeCast_self x6]
  show FloatOps.matmul (F := Ideal) _ none _ x5 _ (ix2 r j) + broadcastTo S2000x128 x6 broadcasts_S1x128_S2000x128 (ix2 r j) = _
  rw [PlainDot.matmul_zero_apply _ rfl rfl rfl rfl rfl rfl, broadcastTo_1b_ab_apply, out2_ix2]
  refine congrArg (· + x6 (ix2 (0 : Fin 1) j)) (Finset.sum_congr rfl fun h _ => ?_)
  exact congrArg (· * x5 (ix2 h j)) (node_hidden x0 x1 x2 x3 x4 r h)

end Cert.KernelIdeal.NodeBody

end
-- ==== Proof.NodeValue.lean ====
/-
  The node update's array after its region: the two-input perceptron of the specification applied to the arrays the region
  is entered with, row by row.

  The grid has 10 points; point `t` is handed rows `2000 t … 2000 t + 1999` of the aggregated messages and of the node
  features, and the whole of each weight and bias, and writes back the same rows of the output. A row of the output depends
  only on the same row of the inputs, so what point `t` writes back is block `t` of one whole-array function, and the 10 blocks
  tile the 20000 rows.
-/
import proofs.«164399_j64424509440354_1_alg».proof.Proof.Gen.KernelIdeal.Frame
import proofs.«164399_j64424509440354_1_alg».proof.Proof.NodeBody
import Idealize.ShloMosaic.Lib.Pipeline.Value

set_option maxRecDepth 16384

noncomputable section

namespace Cert.KernelIdeal.NodeValue

open Cert.KernelIdeal Cert.KernelIdeal.Gen Idealize.ShloMosaic Idealize.ShloMosaic.ValueIdx Idealize.ShloMosaic.TcCoe
open Idealize.SL.Sem Cert.Mlp
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The node update of the arrays as the region finds them: aggregated messages and node features in windows 0 and 1, their
    weight blocks in windows 2 and 3, the first bias in window 4, the second layer's weights and bias in windows 5 and 6. -/
abbrev G (c : Dev nD) : S20000x128.Idx → EReal :=
  out2 (pre2 (V c main_v30) (V c main_v31) (V c main_v33) (V c main_v35) (fun h => V c main_v37 (ix2 (0 : Fin 1) h)))
    (V c main_v36) (fun j => V c main_v38 (ix2 (0 : Fin 1) j))

/-- The printed index maps over the grid: the row-blocked windows move with the point, the others stay at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `r` of point `t`'s block is row `2000 t + r` of the array. -/
def row (t : Fin cfg1.N) (r : Fin 2000) : Fin 20000 :=
  ⟨t.val * 2000 + r.val, by have ht : t.val < 10 := t.isLt; have hr := r.isLt; omega⟩

/-! ## Each input window's block, read off its array -/

theorem blk_rows0 (c : Dev nD) (t : Fin cfg1.N) (r : Fin 2000) (k : Fin 128) :
    iblk1 V c 0 t (ix2 r k) = V c main_v30 (ix2 (row t r) k) := by
  show V c main_v30 (((cfg1.win 0).blk t).view.emb (ix2 r k)) = _
  refine congrArg _ (funext fun a => Fin.ext ?_)
  have hf := idx_facts t
  match a with
  | ⟨0, _⟩ => show win1_0.index t (0 : Fin 2) * 2000 + 1 * r.val = t.val * 2000 + r.val; omega
  | ⟨1, _⟩ => show win1_0.index t (1 : Fin 2) * 128 + 1 * k.val = k.val; omega

theorem blk_rows1 (c : Dev nD) (t : Fin cfg1.N) (r : Fin 2000) (k : Fin 128) :
    iblk1 V c 1 t (ix2 r k) = V c main_v31 (ix2 (row t r) k) := by
  show V c main_v31 (((cfg1.win 1).blk t).view.emb (ix2 r k)) = _
  refine congrArg _ (funext fun a => Fin.ext ?_)
  have hf := idx_facts t
  match a with
  | ⟨0, _⟩ => show win1_1.index t (0 : Fin 2) * 2000 + 1 * r.val = t.val * 2000 + r.val; omega
  | ⟨1, _⟩ => show win1_1.index t (1 : Fin 2) * 128 + 1 * k.val = k.val; omega

theorem blk_w2 (c : Dev nD) (t : Fin cfg1.N) : iblk1 V c 2 t = V c main_v33 := by
  funext y
  show V c main_v33 (((cfg1.win 2).blk t).view.emb y) = V c main_v33 y
  refine congrArg _ (funext fun a => Fin.ext ?_)
  have hf := idx_facts t
  match a with
  | ⟨0, _⟩ => show win1_2.index t (0 : Fin 2) * 128 + 1 * (y 0).val = (y 0).val; omega
  | ⟨1, _⟩ => show win1_2.index t (1 : Fin 2) * 256 + 1 * (y 1).val = (y 1).val; omega

theorem blk_w3 (c : Dev nD) (t : Fin cfg1.N) : iblk1 V c 3 t = V c main_v35 := by
  funext y
  show V c main_v35 (((cfg1.win 3).blk t).view.emb y) = V c main_v35 y
  refine congrArg _ (funext fun a => Fin.ext ?_)
  have hf := idx_facts t
  match a with
  | ⟨0, _⟩ => show win1_3.index t (0 : Fin 2) * 128 + 1 * (y 0).val = (y 0).val; omega
  | ⟨1, _⟩ => show win1_3.index t (1 : Fin 2) * 256 + 1 * (y 1).val = (y 1).val; omega

theorem blk_w4 (c : Dev nD) (t : Fin cfg1.N) : iblk1 V c 4 t = V c main_v37 := by
  funext y
  show V c main_v37 (((cfg1.win 4).blk t).view.emb y) = V c main_v37 y
  refine congrArg _ (funext fun a => Fin.ext ?_)
  have hf := idx_facts t
  match a with
  | ⟨0, _⟩ => show win1_4.index t (0 : Fin 2) * 1 + 1 * (y 0).val = (y 0).val; omega
  | ⟨1, _⟩ => show win1_4.index t (1 : Fin 2) * 256 + 1 * (y 1).val = (y 1).val; omega

theorem blk_w5 (c : Dev nD) (t : Fin cfg1.N) : iblk1 V c 5 t = V c main_v36 := by
  funext y
  show V c main_v36 (((cfg1.win 5).blk t).view.emb y) = V c main_v36 y
  refine congrArg _ (funext fun a => Fin.ext ?_)
  have hf := idx_facts t
  match a with
  | ⟨0, _⟩ => show win1_5.index t (0 : Fin 2) * 256 + 1 * (y 0).val = (y 0).val; omega
  | ⟨1, _⟩ => show win1_5.index t (1 : Fin 2) * 128 + 1 * (y 1).val = (y 1).val; omega

theorem blk_w6 (c : Dev nD) (t : Fin cfg1.N) : iblk1 V c 6 t = V c main_v38 := by
  funext y
  show V c main_v38 (((cfg1.win 6).blk t).view.emb y) = V c main_v38 y
  refine congrArg _ (funext fun a => Fin.ext ?_)
  have hf := idx_facts t
  match a with
  | ⟨0, _⟩ => show win1_6.index t (0 : Fin 2) * 1 + 1 * (y 0).val = (y 0).val; omega
  | ⟨1, _⟩ => show win1_6.index t (1 : Fin 2) * 128 + 1 * (y 1).val = (y 1).val; omega

/-! ## What a point writes back -/

/-- WHAT POINT `t` WRITES BACK is block `t` of `G`. -/
theorem flushed (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S2000x128) hz, View.ld_unit_zero (S := S128x256) hz, View.ld_unit_zero (S := S1x256) hz,
    View.ld_unit_zero (S := S256x128) hz, View.ld_unit_zero (S := S1x128) hz]
  rw [NodeBody.node_body, blk_w2 V c t, blk_w3 V c t, blk_w4 V c t, blk_w5 V c t, blk_w6 V c t]
  funext y
  obtain ⟨r, j, rfl⟩ : ∃ (r : Fin 2000) (j : Fin 128), y = ix2 r j := ⟨y 0, y 1, eq_ix2 y⟩
  have hemb : ((cfg1.win 7).blk t).view.emb (ix2 r j) = ix2 (row t r) j := by
    funext a; apply Fin.ext
    have hf := idx_facts t
    match a with
    | ⟨0, _⟩ => show win1_7.index t (0 : Fin 2) * 2000 + 1 * r.val = t.val * 2000 + r.val; omega
    | ⟨1, _⟩ => show win1_7.index t (1 : Fin 2) * 128 + 1 * j.val = j.val; omega
  show out2 _ _ _ (ix2 r j) = G V c (((cfg1.win 7).blk t).view.emb (ix2 r j))
  rw [hemb]
  exact out2_congr _ _ _ _ r (row t r) j fun h =>
    pre2_congr _ _ _ _ _ _ _ r (row t r) (blk_rows0 V c t r) (blk_rows1 V c t r) h

/-! ## The blocks tile the array -/

theorem mem_blk (t : Fin cfg1.N) (i : S20000x128.Idx) :
    i ∈ ((cfg1.win 7).blk t).view.set ↔ ∀ a : Fin 2, win1_7.index t a * S2000x128.size a ≤ (i a).val
      ∧ (i a).val < win1_7.index t a * S2000x128.size a + S2000x128.size a := by
  show i ∈ ((View.whole main_v39).slice (win1_7.rect t)).set ↔ _
  rw [View.set_slice_whole, Rect.mem_set_unit]
  exact Iff.rfl

/-- Row `n` lies in the block of point `n / 2000`. -/
theorem cover (i : S20000x128.Idx) : ∃ t : Fin cfg1.N, (cfg1.win 7).flush t = true ∧ i ∈ ((cfg1.win 7).blk t).view.set := by
  have hi0 : (i 0).val < 20000 := (i 0).isLt
  have hi1 : (i 1).val < 128 := (i 1).isLt
  obtain ⟨t, ht⟩ : ∃ t : Fin cfg1.N, t.val = (i 0).val / 2000 := ⟨⟨(i 0).val / 2000, by show _ < 10; omega⟩, rfl⟩
  refine ⟨t, flush1_7 t, ?_⟩
  rw [mem_blk]
  have hf := idx_facts t
  intro a
  match a with
  | ⟨0, _⟩ =>
    show win1_7.index t (0 : Fin 2) * 2000 ≤ (i 0).val ∧ (i 0).val < win1_7.index t (0 : Fin 2) * 2000 + 2000
    omega
  | ⟨1, _⟩ =>
    show win1_7.index t (1 : Fin 2) * 128 ≤ (i 1).val ∧ (i 1).val < win1_7.index t (1 : Fin 2) * 128 + 128
    omega

/-- THE ARRAY after the region: the node update of the arrays the region is entered with. -/
theorem final (c : Dev nD) : (dat1 V c).arrAt 7 cfg1.N = G V c :=
  (dat1 V c).arrAt_eq_of_cover 7 (G V c) (fun t _ => flushed V c t) cover

end Cert.KernelIdeal.NodeValue

end
-- ==== Proof.KHost.lean ====
/-
  The arrays each kernel region is entered with, as functions of the program's arguments.

  Before the edge region the program gathers the sender's and the receiver's rows of the node features (a negative
  index first moved up by the number of nodes), cuts the first weight matrix into its three 128-row blocks, and turns the
  biases into one-row matrices; every change of float format is the identity on the extended reals. Between the regions it
  sums the edge region's output into the receivers' rows and cuts the node update's first weight matrix into two blocks.
  No host operation and no region writes an argument.
-/
import proofs.«164399_j64424509440354_1_alg».proof.Proof.Gen.KernelIdeal.Frame
import proofs.«164399_j64424509440354_1_alg».proof.Proof.MlpSpec
import Idealize.ShloMosaic.Lib.Pipeline.Value
import Idealize.ShloMosaic.Lib.StableHlo.Run

set_option maxRecDepth 16384

noncomputable section

namespace Cert.KernelIdeal.Host

open Cert.KernelIdeal Cert.KernelIdeal.Gen Idealize.ShloMosaic Idealize.ShloMosaic.ValueIdx Idealize.ShloMosaic.TcCoe
open Idealize.SL.Sem Idealize.ShloMosaic.StableHlo Cert.Mlp

/-- The rows of the node features the edges' indices name: an index below zero is first moved up by the number of nodes. -/
def rowsAt (nf : (⟨S20000x128, .f32⟩ : BufTy).Contents (Elt Ideal)) (ids : (⟨S640000, .i32⟩ : BufTy).Contents (Elt Ideal)) :
    (⟨S640000x128, .f32⟩ : BufTy).Contents (Elt Ideal) :=
  Host.gather gather_S20000x128_S640000x1_S640000x128_1_0_n_n_0_1_1128 nf
    (broadcastInDim S640000x1 ![0] bcast_S640000_S640000x1_0
      (select (cmpi .slt ids (broadcastInDim S640000 ![] bcast_S_S640000 (constantI S_ 32 0#32)))
        (addi ids (broadcastInDim S640000 ![] bcast_S_S640000 (constantI S_ 32 20000#32))) ids))

/-- The per-edge rows summed into their receivers' rows, from zero. -/
def aggBy (dst : (⟨S640000, .i32⟩ : BufTy).Contents (Elt Ideal)) (upd : (⟨S640000x128, .f32⟩ : BufTy).Contents (Elt Ideal)) :
    (⟨S20000x128, .f32⟩ : BufTy).Contents (Elt Ideal) :=
  Host.scatterAdd (F := Ideal) scatter_S20000x128_S640000x1_S640000x128_1_0_0_1
    (broadcastInDim S20000x128 ![] bcast_S_S20000x128 (constant (F := Ideal) S_ .f32 0x00000000#32))
    (broadcastInDim S640000x1 ![0] bcast_S640000_S640000x1_0 dst) upd

variable (m : (ℓ : Loc nD τ sig) → Buf (Elt Ideal) ℓ) (ρ : Dev nD → PrngReg)

/-! ## A 128-row block of a weight matrix, and a bias as a one-row matrix -/

theorem slice_rows {R : ℕ} (off : ℕ) (hoff : off + 128 ≤ R) (W : (⟨2, ![R, 256]⟩ : Shape).Idx → EReal)
    (hs : (⟨2, ![R, 256]⟩ : Shape).Slices ![off, 0] ⟨2, ![128, 256]⟩) :
    extractStridedSlice (⟨2, ![128, 256]⟩ : Shape) ![off, 0] W hs = rowsOf off hoff W := by
  funext i
  refine extractStridedSlice_apply ![off, 0] W hs i _ fun a => ?_
  match a with
  | ⟨0, _⟩ => rfl
  | ⟨1, _⟩ => exact (Nat.zero_add _).symm

theorem bias_row {n : ℕ} (b : (⟨1, ![n]⟩ : Shape).Idx → EReal) (hs : (⟨1, ![n]⟩ : Shape).ShapeCasts ⟨2, ![1, n]⟩) (h : Fin n) :
    shapeCast (⟨2, ![1, n]⟩ : Shape) b hs (ix2 (0 : Fin 1) h) = b (ix1 h) := by
  refine (shapeCast_addUnit_apply ![n] b hs (ix2 (0 : Fin 1) h)).trans (congrArg b ?_)
  funext a; match a with | ⟨0, _⟩ => rfl

/-! ## The edge region's arrays -/

theorem v14 (c : Dev nD) : (V1 m ρ c main_v14 : S640000x128.Idx → EReal) = m ((c : Thread nD τ).loc main_arg1) := by
  show StableHlo.after hostOps0 (W0 m ρ c) (Proc.devRef .tc main_v14) = _
  after_results; rfl

theorem v15 (c : Dev nD) : (V1 m ρ c main_v15 : S640000x128.Idx → EReal)
    = rowsAt (m ((c : Thread nD τ).loc main_arg0)) (m ((c : Thread nD τ).loc main_arg2)) := by
  show StableHlo.after hostOps0 (W0 m ρ c) (Proc.devRef .tc main_v15) = _
  after_results; rfl

theorem v16 (c : Dev nD) : (V1 m ρ c main_v16 : S640000x128.Idx → EReal)
    = rowsAt (m ((c : Thread nD τ).loc main_arg0)) (m ((c : Thread nD τ).loc main_arg3)) := by
  show StableHlo.after hostOps0 (W0 m ρ c) (Proc.devRef .tc main_v16) = _
  after_results; rfl

theorem v18 (c : Dev nD) : (V1 m ρ c main_v18 : S128x256.Idx → EReal) = rowsOf 0 (by decide) (m ((c : Thread nD τ).loc main_arg4)) := by
  show StableHlo.after hostOps0 (W0 m ρ c) (Proc.devRef .tc main_v18) = _
  after_results
  exact slice_rows 0 (by decide) _ slices_S384x256_S128x256_0_0

theorem v20 (c : Dev nD) : (V1 m ρ c main_v20 : S128x256.Idx → EReal) = rowsOf 128 (by decide) (m ((c : Thread nD τ).loc main_arg4)) := by
  show StableHlo.after hostOps0 (W0 m ρ c) (Proc.devRef .tc main_v20) = _
  after_results
  exact slice_rows 128 (by decide) _ slices_S384x256_S128x256_128_0

theorem v22 (c : Dev nD) : (V1 m ρ c main_v22 : S128x256.Idx → EReal) = rowsOf 256 (by decide) (m ((c : Thread nD τ).loc main_arg4)) := by
  show StableHlo.after hostOps0 (W0 m ρ c) (Proc.devRef .tc main_v22) = _
  after_results
  exact slice_rows 256 (by decide) _ slices_S384x256_S128x256_256_0

theorem v23 (c : Dev nD) : (V1 m ρ c main_v23 : S256x128.Idx → EReal) = m ((c : Thread nD τ).loc main_arg6) := by
  show StableHlo.after hostOps0 (W0 m ρ c) (Proc.devRef .tc main_v23) = _
  after_results; rfl

theorem v24 (c : Dev nD) (h : Fin 256) :
    (V1 m ρ c main_v24 : S1x256.Idx → EReal) (ix2 (0 : Fin 1) h) = m ((c : Thread nD τ).loc main_arg5) (ix1 h) := by
  have e : (V1 m ρ c main_v24 : S1x256.Idx → EReal) = shapeCast S1x256 (m ((c : Thread nD τ).loc main_arg5)) shapeCasts_S256_S1x256 := by
    show StableHlo.after hostOps0 (W0 m ρ c) (Proc.devRef .tc main_v24) = _
    after_results; rfl
  rw [e]; exact bias_row _ _ h

theorem v25 (c : Dev nD) (j : Fin 128) :
    (V1 m ρ c main_v25 : S1x128.Idx → EReal) (ix2 (0 : Fin 1) j) = m ((c : Thread nD τ).loc main_arg7) (ix1 j) := by
  have e : (V1 m ρ c main_v25 : S1x128.Idx → EReal) = shapeCast S1x128 (m ((c : Thread nD τ).loc main_arg7)) shapeCasts_S128_S1x128 := by
    show StableHlo.after hostOps0 (W0 m ρ c) (Proc.devRef .tc main_v25) = _
    after_results; rfl
  rw [e]; exact bias_row _ _ j

/-! ## The arguments at the edge region's exit -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W2_main_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W2_main_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W2_main_arg11 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

/-! ## The node region's arrays -/

theorem v30 (c : Dev nD) : (V3 m ρ c main_v30 : S20000x128.Idx → EReal)
    = aggBy (m ((c : Thread nD τ).loc main_arg3)) (W2 m ρ c (Proc.devRef .tc main_v26)) := by
  show StableHlo.after hostOps1 (W2 m ρ c) (Proc.devRef .tc main_v30) = _
  after_results
  rw [W2_main_arg3]; rfl

theorem v31 (c : Dev nD) : (V3 m ρ c main_v31 : S20000x128.Idx → EReal) = m ((c : Thread nD τ).loc main_arg0) := by
  show StableHlo.after hostOps1 (W2 m ρ c) (Proc.devRef .tc main_v31) = _
  after_results
  rw [W2_main_arg0]; rfl

theorem v33 (c : Dev nD) : (V3 m ρ c main_v33 : S128x256.Idx → EReal) = rowsOf 0 (by decide) (m ((c : Thread nD τ).loc main_arg8)) := by
  show StableHlo.after hostOps1 (W2 m ρ c) (Proc.devRef .tc main_v33) = _
  after_results
  rw [W2_main_arg8]
  exact slice_rows 0 (by decide) _ slices_S256x256_S128x256_0_0

theorem v35 (c : Dev nD) : (V3 m ρ c main_v35 : S128x256.Idx → EReal) = rowsOf 128 (by decide) (m ((c : Thread nD τ).loc main_arg8)) := by
  show StableHlo.after hostOps1 (W2 m ρ c) (Proc.devRef .tc main_v35) = _
  after_results
  rw [W2_main_arg8]
  exact slice_rows 128 (by decide) _ slices_S256x256_S128x256_128_0

theorem v36 (c : Dev nD) : (V3 m ρ c main_v36 : S256x128.Idx → EReal) = m ((c : Thread nD τ).loc main_arg10) := by
  show StableHlo.after hostOps1 (W2 m ρ c) (Proc.devRef .tc main_v36) = _
  after_results
  rw [W2_main_arg10]; rfl

theorem v37 (c : Dev nD) (h : Fin 256) :
    (V3 m ρ c main_v37 : S1x256.Idx → EReal) (ix2 (0 : Fin 1) h) = m ((c : Thread nD τ).loc main_arg9) (ix1 h) := by
  have e : (V3 m ρ c main_v37 : S1x256.Idx → EReal) = shapeCast S1x256 (m ((c : Thread nD τ).loc main_arg9)) shapeCasts_S256_S1x256 := by
    show StableHlo.after hostOps1 (W2 m ρ c) (Proc.devRef .tc main_v37) = _
    after_results
    rw [W2_main_arg9]; rfl
  rw [e]; exact bias_row _ _ h

theorem v38 (c : Dev nD) (j : Fin 128) :
    (V3 m ρ c main_v38 : S1x128.Idx → EReal) (ix2 (0 : Fin 1) j) = m ((c : Thread nD τ).loc main_arg11) (ix1 j) := by
  have e : (V3 m ρ c main_v38 : S1x128.Idx → EReal) = shapeCast S1x128 (m ((c : Thread nD τ).loc main_arg11)) shapeCasts_S128_S1x128 := by
    show StableHlo.after hostOps1 (W2 m ρ c) (Proc.devRef .tc main_v38) = _
    after_results
    rw [W2_main_arg11]; rfl
  rw [e]; exact bias_row _ _ j

end Cert.KernelIdeal.Host

end
-- ==== Proof.KValue.lean ====
/-
  The kernel program's two results as functions of its arguments.

  The edge region's output array is the three-input perceptron of the edge features, the gathered sender and receiver rows
  of the node features, and the first weight matrix's three blocks. No later operation writes it, so it is the program's
  second result. The node region's output is the two-input perceptron of that result summed into the receivers' rows and of
  the node features: the program's first result.
-/
import proofs.«164399_j64424509440354_1_alg».proof.Proof.KRun
import proofs.«164399_j64424509440354_1_alg».proof.Proof.EdgeValue
import proofs.«164399_j64424509440354_1_alg».proof.Proof.NodeValue
import proofs.«164399_j64424509440354_1_alg».proof.Proof.KHost

set_option maxRecDepth 16384

noncomputable section

namespace Cert.KernelIdeal.Results

open Cert.KernelIdeal Cert.KernelIdeal.Gen Idealize.ShloMosaic Idealize.ShloMosaic.ValueIdx Idealize.ShloMosaic.TcCoe
open Idealize.SL.Sem Idealize.ShloMosaic.StableHlo Cert.Mlp

variable (m : (ℓ : Loc nD τ sig) → Buf (Elt Ideal) ℓ) (ρ : Dev nD → PrngReg)

/-- The edge update of the arguments. -/
def edgeOf (c : Dev nD) : S640000x128.Idx → EReal :=
  out2 (pre3 (m ((c : Thread nD τ).loc main_arg1)) (Host.rowsAt (m ((c : Thread nD τ).loc main_arg0)) (m ((c : Thread nD τ).loc main_arg2)))
      (Host.rowsAt (m ((c : Thread nD τ).loc main_arg0)) (m ((c : Thread nD τ).loc main_arg3)))
      (rowsOf 0 (by decide) (m ((c : Thread nD τ).loc main_arg4))) (rowsOf 128 (by decide) (m ((c : Thread nD τ).loc main_arg4)))
      (rowsOf 256 (by decide) (m ((c : Thread nD τ).loc main_arg4))) (fun h => (m ((c : Thread nD τ).loc main_arg5)) (ix1 h)))
    (m ((c : Thread nD τ).loc main_arg6)) (fun j => (m ((c : Thread nD τ).loc main_arg7)) (ix1 j))

/-- The node update of the arguments: of the edge update summed by receiver, and of the node features. -/
def nodeOf (c : Dev nD) : S20000x128.Idx → EReal :=
  out2 (pre2 (Host.aggBy (m ((c : Thread nD τ).loc main_arg3)) (edgeOf m c)) (m ((c : Thread nD τ).loc main_arg0))
      (rowsOf 0 (by decide) (m ((c : Thread nD τ).loc main_arg8))) (rowsOf 128 (by decide) (m ((c : Thread nD τ).loc main_arg8)))
      (fun h => (m ((c : Thread nD τ).loc main_arg9)) (ix1 h)))
    (m ((c : Thread nD τ).loc main_arg10)) (fun j => (m ((c : Thread nD τ).loc main_arg11)) (ix1 j))

/-- The edge region's whole-array function at the arrays the host operations before it leave. -/
theorem edge_G (c : Dev nD) : EdgeValue.G (V1 m ρ) c = edgeOf m c := by
  have e24 := funext (Host.v24 m ρ c)
  have e25 := funext (Host.v25 m ρ c)
  unfold EdgeValue.G edgeOf
  rw [Host.v14 m ρ c, Host.v15 m ρ c, Host.v16 m ρ c, Host.v18 m ρ c, Host.v20 m ρ c, Host.v22 m ρ c, Host.v23 m ρ c, e24, e25]

/-- The edge region's output array at the region's exit. -/
theorem W2_v26 (c : Dev nD) : W2 m ρ c (Proc.devRef .tc main_v26) = edgeOf m c :=
  calc W2 m ρ c (Proc.devRef .tc main_v26)
    _ = (dat0 (V1 m ρ) c).arrAt 9 cfg0.N := W2_arr m ρ c 9
    _ = EdgeValue.G (V1 m ρ) c := EdgeValue.final (V1 m ρ) c
    _ = edgeOf m c := edge_G m ρ c

/-- It is still there at the end: neither the host operations after the region nor the node region writes it. -/
theorem W4_v26 (c : Dev nD) : W4 m ρ c (Proc.devRef .tc main_v26) = edgeOf m c :=
  calc W4 m ρ c (Proc.devRef .tc main_v26)
    _ = W3 m ρ c (Proc.devRef .tc main_v26) := W4_of_ne m ρ c main_v26 (by decide)
    _ = W2 m ρ c (Proc.devRef .tc main_v26) := StableHlo.after_of_forall_not_mem (b := Proc.devRef .tc main_v26) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = edgeOf m c := W2_v26 m ρ c

/-- The node region's whole-array function at the arrays the host operations between the regions leave. -/
theorem node_G (c : Dev nD) : NodeValue.G (V3 m ρ) c = nodeOf m c := by
  have e37 := funext (Host.v37 m ρ c)
  have e38 := funext (Host.v38 m ρ c)
  unfold NodeValue.G nodeOf
  rw [Host.v30 m ρ c, W2_v26 m ρ c, Host.v31 m ρ c, Host.v33 m ρ c, Host.v35 m ρ c, Host.v36 m ρ c, e37, e38]

/-- The node region's output array at the end. -/
theorem W4_v39 (c : Dev nD) : W4 m ρ c (Proc.devRef .tc main_v39) = nodeOf m c :=
  calc W4 m ρ c (Proc.devRef .tc main_v39)
    _ = (dat1 (V3 m ρ) c).arrAt 7 cfg1.N := W4_arr m ρ c 7
    _ = NodeValue.G (V3 m ρ) c := NodeValue.final (V3 m ρ) c
    _ = nodeOf m c := node_G m ρ c

/-- THE RUN: every weakly fair execution terminates without a fault, the first result the node update of the arguments,
    the second the edge update, the arguments as launched. -/
theorem run : θ_run defs (onTc (τ := τ) (main (F := Ideal))) ⟨m, fun _ => 0, ρ⟩ (fun r => ∀ c : Dev nD,
      r.2.mem ((c.tc : Thread nD τ).loc main_v39) = nodeOf m c
      ∧ r.2.mem ((c.tc : Thread nD τ).loc main_v26) = edgeOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (W4_v39 m ρ c), (h c).2.1.trans (W4_v26 m ρ c), (h c).2.2⟩)
    (Named.run_named (F := Ideal) m ρ)

end Cert.KernelIdeal.Results

end
-- ==== Proof.RefValue.lean ====
/-
  The reference's two results, read into the specification.

  The reference joins edge features, gathered sender features and gathered receiver features side by side into 384 columns and
  multiplies by the whole first weight matrix: entry by entry that is a sum over 384 positions, which splits into three runs
  of 128, each one input against its own 128 rows of the weights. Likewise the node update joins aggregated messages and node
  features into 256 columns. With the bias broadcasts read at an entry and ReLU as the maximum with zero, the reference's edge
  result and node result are the specification's perceptrons of the arguments. The gathers and the scatter-add are carried as
  they are: the other program applies the same operations.
-/
import proofs.«164399_j64424509440354_1_alg».proof.Proof.Gen.ReferenceIdeal.Read
import proofs.«164399_j64424509440354_1_alg».proof.Proof.LibPlainDot
import proofs.«164399_j64424509440354_1_alg».proof.Proof.MlpSpec
import Idealize.ShloMosaic.Lib.Pipeline.Value

noncomputable section

namespace Cert.ReferenceIdeal.RefValue

open Cert.ReferenceIdeal Cert.ReferenceIdeal.Read Idealize.ShloMosaic Idealize.ShloMosaic.ValueIdx Cert.Mlp

/-! ## Row-aligned arrays joined side by side: a column of the join is a column of one piece -/

section Join
variable {E : ℕ}

theorem join3_fst (A B C : (⟨2, ![E, 128]⟩ : Shape).Idx → EReal)
    (hc : Shape.Concatenates [(⟨2, ![E, 128]⟩ : Shape), ⟨2, ![E, 128]⟩, ⟨2, ![E, 128]⟩] ⟨2, ![E, 384]⟩ 1) (e : Fin E) (k : Fin 128) :
    concatenate (⟨2, ![E, 384]⟩ : Shape) 1 [⟨⟨2, ![E, 128]⟩, A⟩, ⟨⟨2, ![E, 128]⟩, B⟩, ⟨⟨2, ![E, 128]⟩, C⟩] hc
      (ix2 e (⟨k.val, by have := k.isLt; omega⟩ : Fin 384)) = A (ix2 e k) :=
  concatenate_apply_piece 1 [⟨⟨2, ![E, 128]⟩, A⟩, ⟨⟨2, ![E, 128]⟩, B⟩, ⟨⟨2, ![E, 128]⟩, C⟩] hc _ 0 (by simp) ⟨2, ![E, 128]⟩ A rfl rfl 0 rfl (ix2 e k)
    (fun b hb => match b, hb with | ⟨0, _⟩, _ => rfl | ⟨1, _⟩, hb => absurd rfl hb) (Nat.zero_add _)

theorem join3_snd (A B C : (⟨2, ![E, 128]⟩ : Shape).Idx → EReal)
    (hc : Shape.Concatenates [(⟨2, ![E, 128]⟩ : Shape), ⟨2, ![E, 128]⟩, ⟨2, ![E, 128]⟩] ⟨2, ![E, 384]⟩ 1) (e : Fin E) (k : Fin 128) :
    concatenate (⟨2, ![E, 384]⟩ : Shape) 1 [⟨⟨2, ![E, 128]⟩, A⟩, ⟨⟨2, ![E, 128]⟩, B⟩, ⟨⟨2, ![E, 128]⟩, C⟩] hc
      (ix2 e (⟨128 + k.val, by have := k.isLt; omega⟩ : Fin 384)) = B (ix2 e k) :=
  concatenate_apply_piece 1 [⟨⟨2, ![E, 128]⟩, A⟩, ⟨⟨2, ![E, 128]⟩, B⟩, ⟨⟨2, ![E, 128]⟩, C⟩] hc _ 1 (by simp) ⟨2, ![E, 128]⟩ B rfl rfl 128 rfl (ix2 e k)
    (fun b hb => match b, hb with | ⟨0, _⟩, _ => rfl | ⟨1, _⟩, hb => absurd rfl hb) rfl

theorem join3_thd (A B C : (⟨2, ![E, 128]⟩ : Shape).Idx → EReal)
    (hc : Shape.Concatenates [(⟨2, ![E, 128]⟩ : Shape), ⟨2, ![E, 128]⟩, ⟨2, ![E, 128]⟩] ⟨2, ![E, 384]⟩ 1) (e : Fin E) (k : Fin 128) :
    concatenate (⟨2, ![E, 384]⟩ : Shape) 1 [⟨⟨2, ![E, 128]⟩, A⟩, ⟨⟨2, ![E, 128]⟩, B⟩, ⟨⟨2, ![E, 128]⟩, C⟩] hc
      (ix2 e (⟨256 + k.val, by have := k.isLt; omega⟩ : Fin 384)) = C (ix2 e k) :=
  concatenate_apply_piece 1 [⟨⟨2, ![E, 128]⟩, A⟩, ⟨⟨2, ![E, 128]⟩, B⟩, ⟨⟨2, ![E, 128]⟩, C⟩] hc _ 2 (by simp) ⟨2, ![E, 128]⟩ C rfl rfl 256 rfl (ix2 e k)
    (fun b hb => match b, hb with | ⟨0, _⟩, _ => rfl | ⟨1, _⟩, hb => absurd rfl hb) rfl

theorem join2_fst (A B : (⟨2, ![E, 128]⟩ : Shape).Idx → EReal)
    (hc : Shape.Concatenates [(⟨2, ![E, 128]⟩ : Shape), ⟨2, ![E, 128]⟩] ⟨2, ![E, 256]⟩ 1) (e : Fin E) (k : Fin 128) :
    concatenate (⟨2, ![E, 256]⟩ : Shape) 1 [⟨⟨2, ![E, 128]⟩, A⟩, ⟨⟨2, ![E, 128]⟩, B⟩] hc
      (ix2 e (⟨k.val, by have := k.isLt; omega⟩ : Fin 256)) = A (ix2 e k) :=
  concatenate_apply_piece 1 [⟨⟨2, ![E, 128]⟩, A⟩, ⟨⟨2, ![E, 128]⟩, B⟩] hc _ 0 (by simp) ⟨2, ![E, 128]⟩ A rfl rfl 0 rfl (ix2 e k)
    (fun b hb => match b, hb with | ⟨0, _⟩, _ => rfl | ⟨1, _⟩, hb => absurd rfl hb) (Nat.zero_add _)

theorem join2_snd (A B : (⟨2, ![E, 128]⟩ : Shape).Idx → EReal)
    (hc : Shape.Concatenates [(⟨2, ![E, 128]⟩ : Shape), ⟨2, ![E, 128]⟩] ⟨2, ![E, 256]⟩ 1) (e : Fin E) (k : Fin 128) :
    concatenate (⟨2, ![E, 256]⟩ : Shape) 1 [⟨⟨2, ![E, 128]⟩, A⟩, ⟨⟨2, ![E, 128]⟩, B⟩] hc
      (ix2 e (⟨128 + k.val, by have := k.isLt; omega⟩ : Fin 256)) = B (ix2 e k) :=
  concatenate_apply_piece 1 [⟨⟨2, ![E, 128]⟩, A⟩, ⟨⟨2, ![E, 128]⟩, B⟩] hc _ 1 (by simp) ⟨2, ![E, 128]⟩ B rfl rfl 128 rfl (ix2 e k)
    (fun b hb => match b, hb with | ⟨0, _⟩, _ => rfl | ⟨1, _⟩, hb => absurd rfl hb) rfl

end Join

/-! ## The edge update -/

variable (x0 : (⟨S20000x128, .f32⟩ : BufTy).Contents (Elt Ideal)) (x1 : (⟨S640000x128, .f32⟩ : BufTy).Contents (Elt Ideal))
  (x2 x3 : (⟨S640000, .i32⟩ : BufTy).Contents (Elt Ideal)) (x4 : (⟨S384x256, .f32⟩ : BufTy).Contents (Elt Ideal))
  (x5 : (⟨S256, .f32⟩ : BufTy).Contents (Elt Ideal)) (x6 : (⟨S256x128, .f32⟩ : BufTy).Contents (Elt Ideal))
  (x7 : (⟨S128, .f32⟩ : BufTy).Contents (Elt Ideal)) (x8 : (⟨S256x256, .f32⟩ : BufTy).Contents (Elt Ideal))
  (x9 : (⟨S256, .f32⟩ : BufTy).Contents (Elt Ideal)) (x10 : (⟨S256x128, .f32⟩ : BufTy).Contents (Elt Ideal))
  (x11 : (⟨S128, .f32⟩ : BufTy).Contents (Elt Ideal))

/-- The joined inputs times the whole first weight matrix, at row `e` and unit `h`: the three inputs' terms. -/
theorem edge_first (e : Fin 640000) (h : Fin 256) :
    val_main_v15 (F := Ideal) x0 x1 x2 x3 x4 (ix2 e h)
      = term x1 (rowsOf 0 (by decide) x4) e h + term (val_main_v6 (F := Ideal) x0 x2) (rowsOf 128 (by decide) x4) e h
        + term (val_main_v13 (F := Ideal) x0 x3) (rowsOf 256 (by decide) x4) e h := by
  unfold val_main_v15 val_main_v14
  simp only [Host.dotGeneral]
  rw [PlainDot.dotGeneral_apply _ rfl rfl rfl rfl rfl rfl, sum_split3]
  unfold term
  refine congrArg₂ (· + ·) (congrArg₂ (· + ·) ?_ ?_) ?_
  · exact Finset.sum_congr rfl fun k _ => by rw [join3_fst, rowsOf_zero_ix2]
  · exact Finset.sum_congr rfl fun k _ => by rw [join3_snd, rowsOf_ix2]
  · exact Finset.sum_congr rfl fun k _ => by rw [join3_thd, rowsOf_ix2]

/-- The hidden layer of the reference's edge update: the maximum with zero of the specification's pre-activation. -/
theorem edge_hidden (e : Fin 640000) (h : Fin 256) :
    val_main_v19 (F := Ideal) x0 x1 x2 x3 x4 x5 (ix2 e h)
      = max (pre3 x1 (val_main_v6 (F := Ideal) x0 x2) (val_main_v13 (F := Ideal) x0 x3) (rowsOf 0 (by decide) x4)
          (rowsOf 128 (by decide) x4) (rowsOf 256 (by decide) x4) (fun h => x5 (ix1 h)) e h) 0 := by
  rw [val_main_v19_apply, val_main_v18_apply, edge_first, val_main_v17_apply, val_main_v16_apply, val_main_call0_v0_apply,
    val_main_call0_cst_apply]
  have hb : idx_main_v16 (idx_main_v17 (ix2 e h)) = ix1 h := funext fun a => match a with | ⟨0, _⟩ => rfl
  rw [hb]
  show max (_ + x5 (ix1 h)) (Ideal.ofBits .f32 0x00000000#32) = _
  rw [Ideal.ofBits_zero_f32]
  rfl

/-- THE REFERENCE's edge result is the specification's edge update of the arguments. -/
theorem edge_eq :
    val_main_v23 (F := Ideal) x0 x1 x2 x3 x4 x5 x6 x7
      = out2 (pre3 x1 (val_main_v6 (F := Ideal) x0 x2) (val_main_v13 (F := Ideal) x0 x3) (rowsOf 0 (by decide) x4)
          (rowsOf 128 (by decide) x4) (rowsOf 256 (by decide) x4) (fun h => x5 (ix1 h))) x6 (fun j => x7 (ix1 j)) := by
  funext i
  obtain ⟨e, j, rfl⟩ : ∃ (e : Fin 640000) (j : Fin 128), i = ix2 e j := ⟨i 0, i 1, eq_ix2 i⟩
  have hb : idx_main_v21 (idx_main_v22 (ix2 e j)) = ix1 j := funext fun a => match a with | ⟨0, _⟩ => rfl
  rw [val_main_v23_apply, val_main_v22_apply, val_main_v21_apply, out2_ix2, hb]
  refine congrArg₂ (· + ·) ?_ rfl
  unfold val_main_v20
  generalize hy : val_main_v19 (F := Ideal) x0 x1 x2 x3 x4 x5 = y
  simp only [Host.dotGeneral]
  rw [PlainDot.dotGeneral_apply _ rfl rfl rfl rfl rfl rfl]
  refine Finset.sum_congr rfl fun h _ => ?_
  rw [← hy, edge_hidden]

/-! ## The node update -/

/-- The aggregated messages: the scatter-add of the edge result by receiver. -/
abbrev agg : (⟨S20000x128, .f32⟩ : BufTy).Contents (Elt Ideal) := val_main_v26 (F := Ideal) x0 x1 x2 x3 x4 x5 x6 x7

theorem node_first (n : Fin 20000) (h : Fin 256) :
    val_main_v28 (F := Ideal) x0 x1 x2 x3 x4 x5 x6 x7 x8 (ix2 n h)
      = term (agg x0 x1 x2 x3 x4 x5 x6 x7) (rowsOf 0 (by decide) x8) n h + term x0 (rowsOf 128 (by decide) x8) n h := by
  unfold val_main_v28 val_main_v27
  simp only [Host.dotGeneral]
  rw [PlainDot.dotGeneral_apply _ rfl rfl rfl rfl rfl rfl, sum_split2]
  unfold term
  refine congrArg₂ (· + ·) ?_ ?_
  · exact Finset.sum_congr rfl fun k _ => by rw [join2_fst, rowsOf_zero_ix2]
  · exact Finset.sum_congr rfl fun k _ => by rw [join2_snd, rowsOf_ix2]

theorem node_hidden (n : Fin 20000) (h : Fin 256) :
    val_main_v32 (F := Ideal) x0 x1 x2 x3 x4 x5 x6 x7 x8 x9 (ix2 n h)
      = max (pre2 (agg x0 x1 x2 x3 x4 x5 x6 x7) x0 (rowsOf 0 (by decide) x8) (rowsOf 128 (by decide) x8) (fun h => x9 (ix1 h)) n h) 0 := by
  rw [val_main_v32_apply, val_main_v31_apply, node_first, val_main_v30_apply, val_main_v29_apply, val_main_call1_v0_apply,
    val_main_call1_cst_apply]
  have hb : idx_main_v29 (idx_main_v30 (ix2 n h)) = ix1 h := funext fun a => match a with | ⟨0, _⟩ => rfl
  rw [hb]
  show max (_ + x9 (ix1 h)) (Ideal.ofBits .f32 0x00000000#32) = _
  rw [Ideal.ofBits_zero_f32]
  rfl

/-- THE REFERENCE's node result is the specification's node update of the aggregated messages and the node features. -/
theorem node_eq :
    val_main_v36 (F := Ideal) x0 x1 x2 x3 x4 x5 x6 x7 x8 x9 x10 x11
      = out2 (pre2 (agg x0 x1 x2 x3 x4 x5 x6 x7) x0 (rowsOf 0 (by decide) x8) (rowsOf 128 (by decide) x8) (fun h => x9 (ix1 h)))
          x10 (fun j => x11 (ix1 j)) := by
  funext i
  obtain ⟨n, j, rfl⟩ : ∃ (n : Fin 20000) (j : Fin 128), i = ix2 n j := ⟨i 0, i 1, eq_ix2 i⟩
  have hb : idx_main_v34 (idx_main_v35 (ix2 n j)) = ix1 j := funext fun a => match a with | ⟨0, _⟩ => rfl
  rw [val_main_v36_apply, val_main_v35_apply, val_main_v34_apply, out2_ix2, hb]
  refine congrArg₂ (· + ·) ?_ rfl
  unfold val_main_v33
  generalize hy : val_main_v32 (F := Ideal) x0 x1 x2 x3 x4 x5 x6 x7 x8 x9 = y
  simp only [Host.dotGeneral]
  rw [PlainDot.dotGeneral_apply _ rfl rfl rfl rfl rfl rfl]
  refine Finset.sum_congr rfl fun h _ => ?_
  rw [← hy, node_hidden]

end Cert.ReferenceIdeal.RefValue

end
-- ==== Proof.lean ====
/-
  A graph network's message-passing step, two ways, computes one function on the extended reals.

  Both programs gather the sender's and the receiver's node features for every edge, update each edge by a two-layer
  perceptron of its own features and the two gathered rows, sum the updated edges into their receivers' rows, and update
  each node by a two-layer perceptron of that sum and the node's own features. The kernel program runs the two perceptrons
  as row-blocked kernels, each multiplying every input by its own 128-row block of the first weight matrix and adding the
  products; the reference joins the inputs side by side and multiplies once by the whole matrix. Entry by entry the
  reference's sum over 384 (or 256) positions is the kernel's three (or two) sums over 128, because addition of extended
  reals is commutative and associative; every change of float format is the identity; ReLU is the maximum with zero on
  both sides; and the gathers and the scatter-add are the same operations applied to equal operands. No finiteness of the
  inputs is used.
-/
import proofs.«164399_j64424509440354_1_alg».proof.Defs
import proofs.«164399_j64424509440354_1_alg».proof.Proof.Gen.Kernel
import proofs.«164399_j64424509440354_1_alg».proof.Proof.Gen.Kernel.Skeleton
import proofs.«164399_j64424509440354_1_alg».proof.Proof.Gen.Kernel.Launch
import proofs.«164399_j64424509440354_1_alg».proof.Proof.Gen.Kernel.Points
import proofs.«164399_j64424509440354_1_alg».proof.Proof.Gen.Kernel.Frame
import proofs.«164399_j64424509440354_1_alg».proof.Proof.Gen.KernelIdeal
import proofs.«164399_j64424509440354_1_alg».proof.Proof.Gen.KernelIdeal.Skeleton
import proofs.«164399_j64424509440354_1_alg».proof.Proof.Gen.KernelIdeal.Launch
import proofs.«164399_j64424509440354_1_alg».proof.Proof.Gen.KernelIdeal.Points
import proofs.«164399_j64424509440354_1_alg».proof.Proof.Gen.KernelIdeal.Frame
import proofs.«164399_j64424509440354_1_alg».proof.Proof.Gen.ReferenceIdeal
import proofs.«164399_j64424509440354_1_alg».proof.Proof.Gen.ReferenceIdeal.Run
import proofs.«164399_j64424509440354_1_alg».proof.Proof.Gen.ReferenceIdeal.Read
import proofs.«164399_j64424509440354_1_alg».proof.Proof.Gen.Pre_finite_inputs
import proofs.«164399_j64424509440354_1_alg».proof.Proof.KValue
import proofs.«164399_j64424509440354_1_alg».proof.Proof.RefValue
import Idealize.ShloMosaic.Adequacy
import Idealize.ShloMosaic.Init

set_option maxRecDepth 16384

noncomputable section

namespace Cert.Proof

open Idealize.ShloMosaic Idealize.SL.Sem Idealize.ShloMosaic.ValueIdx Cert.Mlp

/-! ## The shared host operations are the same functions in both programs -/

/-- The reference's sender gather is the kernel program's. -/
theorem gather_src (nf : (⟨Cert.KernelIdeal.S20000x128, .f32⟩ : BufTy).Contents (Elt Ideal)) (ids : (⟨Cert.KernelIdeal.S640000, .i32⟩ : BufTy).Contents (Elt Ideal)) :
    Cert.ReferenceIdeal.Read.val_main_v6 (F := Ideal) nf ids = Cert.KernelIdeal.Host.rowsAt nf ids := rfl

/-- The reference's receiver gather is the kernel program's. -/
theorem gather_dst (nf : (⟨Cert.KernelIdeal.S20000x128, .f32⟩ : BufTy).Contents (Elt Ideal)) (ids : (⟨Cert.KernelIdeal.S640000, .i32⟩ : BufTy).Contents (Elt Ideal)) :
    Cert.ReferenceIdeal.Read.val_main_v13 (F := Ideal) nf ids = Cert.KernelIdeal.Host.rowsAt nf ids := rfl

/-- The reference's scatter-add from zero is the kernel program's. -/
theorem scatter_dst (dst : (⟨Cert.KernelIdeal.S640000, .i32⟩ : BufTy).Contents (Elt Ideal)) (upd : (⟨Cert.KernelIdeal.S640000x128, .f32⟩ : BufTy).Contents (Elt Ideal)) :
    Host.scatterAdd (F := Ideal) (φ := .f32) Cert.ReferenceIdeal.scatter_S20000x128_S640000x1_S640000x128_1_0_0_1
      (Cert.ReferenceIdeal.Read.val_main_v24 (F := Ideal)) (Cert.ReferenceIdeal.Read.val_main_v25 (F := Ideal) dst) upd
      = Cert.KernelIdeal.Host.aggBy dst upd := rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both programs run; the kernel program's results are the node update and the edge update of its arguments, and the
    reference's results, read into the same specification over arguments that agree, are the same two functions. -/
theorem algebraic : Cert.algebraic_KernelIdeal_ReferenceIdeal := by
  intro m ρ m' ρ' _ hagree
  refine ⟨fun c => Cert.KernelIdeal.Results.nodeOf m c, fun c => Cert.KernelIdeal.Results.edgeOf m c,
    Cert.KernelIdeal.Results.run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨a0, a1, a2, a3, a4, a5, a6, a7, a8, a9, a10, a11⟩ := hagree c
    rw [Cert.ReferenceIdeal.Read.val_main_v36_eq, Cert.ReferenceIdeal.RefValue.node_eq, a0, a1, a2, a3, a4, a5, a6, a7, a8, a9, a10, a11]
    unfold Cert.ReferenceIdeal.RefValue.agg Cert.ReferenceIdeal.Read.val_main_v26
    rw [Cert.ReferenceIdeal.RefValue.edge_eq, gather_src, gather_dst, scatter_dst]
    rfl
  · obtain ⟨a0, a1, a2, a3, a4, a5, a6, a7, a8, a9, a10, a11⟩ := hagree c
    rw [Cert.ReferenceIdeal.Read.val_main_v23_eq, Cert.ReferenceIdeal.RefValue.edge_eq, a0, a1, a2, a3, a4, a5, a6, a7, gather_src, gather_dst]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
